-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x2048 : Shape := ⟨3, ![64, 512, 2048]⟩
abbrev S512x1024 : Shape := ⟨2, ![512, 1024]⟩
abbrev S_ : Shape := ⟨0, ![]⟩

class Facts : Prop where
  bcast_S_S64x512x2048 : S_.BroadcastsInDim S64x512x2048 (![] : Fin 0 → Fin S64x512x2048.rank)
  reducesTo_S64x512x2048_S_d0_1_2 : S64x512x2048.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S64x512x2048 .f32) (main_arg1 : FVec F S512x1024 .f32) : IVec S_ 1 :=
  let main_v0 : FVec F S64x512x2048 .f32 := Host.absf main_arg0
  let main_cst : FVec F S_ .f32 := constant S_ .f32 0x7F800000#32
  let main_v1 : FVec F S64x512x2048 .f32 := broadcastInDim S64x512x2048 ![] bcast_S_S64x512x2048 main_cst
  let main_v2 : IVec S64x512x2048 1 := cmpf .olt main_v0 main_v1
  let main_c : IVec S_ 1 := constantI S_ 1 1#1
  let main_v3 : IVec S_ 1 := (fun x v => Host.reduce IntOp.andi x v reducesTo_S64x512x2048_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S64x512x2048 : Shape := ⟨3, ![64, 512, 2048]⟩
abbrev S512x1024 : Shape := ⟨2, ![512, 1024]⟩
abbrev S_ : Shape := ⟨0, ![]⟩
abbrev S1024 : Shape := ⟨1, ![1024]⟩
abbrev S1x1024 : Shape := ⟨2, ![1, 1024]⟩
abbrev S1024x1 : Shape := ⟨2, ![1024, 1]⟩
abbrev S64x1024x2048 : Shape := ⟨3, ![64, 1024, 2048]⟩
abbrev S1x512x1024 : Shape := ⟨3, ![1, 512, 1024]⟩
abbrev S1x1024x1024 : Shape := ⟨3, ![1, 1024, 1024]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S64x512x2048, .f32⟩
  | .hbm, ⟨1, _⟩ => ⟨S512x1024, .f32⟩
  | .hbm, ⟨2, _⟩ => ⟨S_, .f32⟩
  | .hbm, ⟨3, _⟩ => ⟨S512x1024, .f32⟩
  | .hbm, ⟨4, _⟩ => ⟨S512x1024, .f32⟩
  | .hbm, ⟨5, _⟩ => ⟨S512x1024, .bf16⟩
  | .hbm, ⟨6, _⟩ => ⟨S512x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1024x1, .f32⟩
  | .hbm, ⟨11, _⟩ => ⟨S64x1024x2048, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .bf16⟩
  | .local _ .vmem, ⟨3, _⟩ => ⟨S1024x1, .f32⟩
  | .local _ .vmem, ⟨4, _⟩ => ⟨S1x1024x1024, .f32⟩
  | .local _ .vmem, ⟨5, _⟩ => ⟨S1x1024x1024, .f32⟩
  | _, _ => ⟨S64x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S512x1024 : S_.BroadcastsInDim S512x1024 (![] : Fin 0 → Fin S512x1024.rank)
  bitsLt_bf16_f32 : FTy.bits .bf16 < FTy.bits .f32
  reducesTo_S512x1024_S1024_d0 : S512x1024.ReducesTo [0] S1024
  h_S_ : 0 < S_.numel
  bcast_S1024_S1x1024_1 : S1024.BroadcastsInDim S1x1024 (![1] : Fin 1 → Fin S1x1024.rank)
  transposes_S1x1024_S1024x1_1_0 : S1x1024.Transposes [1, 0] S1024x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  reduces_S1024x1024_S1024 : S1024x1024.Reduces [0] S1024
  shapeCasts_S1024_S1x1024 : S1024.ShapeCasts S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x2048.size a
  hwx0_0 : ∀ i : grid0.Coords, EltTy.bits .f32 = 32 ∨ (Rect.block (s := S64x512x2048) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S64x1024x2048.size a
  hwx0_3 : ∀ i : grid0.Coords, EltTy.bits .f32 = 32 ∨ (Rect.block (s := S64x1024x2048) S1x1024x1024.size (cc0_transform_3 i) (hinb0_3 i)).WholeWords (EltTy.packing .f32)

variable [Facts₀]

def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x2048 : Shape := ⟨3, ![64, 512, 2048]⟩
abbrev S512x1024 : Shape := ⟨2, ![512, 1024]⟩
abbrev S64x2048x512 : Shape := ⟨3, ![64, 2048, 512]⟩
abbrev S_ : Shape := ⟨0, ![]⟩
abbrev S64x2048 : Shape := ⟨2, ![64, 2048]⟩
abbrev S64x2048x1 : Shape := ⟨3, ![64, 2048, 1]⟩
abbrev S1024 : Shape := ⟨1, ![1024]⟩
abbrev S64x2048x1024 : Shape := ⟨3, ![64, 2048, 1024]⟩
abbrev S1x1x1024 : Shape := ⟨3, ![1, 1, 1024]⟩
abbrev S64x1024x2048 : Shape := ⟨3, ![64, 1024, 2048]⟩

abbrev nBuf : Space → Nat
  | .hbm => 35
  | .vmem => 0
  | .smem => 0
  | _ => 0

abbrev bufTy : (tb : Table) → Fin (tcTables nBuf tb) → BufTy
  | .hbm, ⟨0, _⟩ => ⟨S64x512x2048, .f32⟩
  | .hbm, ⟨1, _⟩ => ⟨S512x1024, .f32⟩
  | .hbm, ⟨2, _⟩ => ⟨S64x2048x512, .f32⟩
  | .hbm, ⟨3, _⟩ => ⟨S64x2048x512, .f32⟩
  | .hbm, ⟨4, _⟩ => ⟨S_, .f32⟩
  | .hbm, ⟨5, _⟩ => ⟨S64x2048, .f32⟩
  | .hbm, ⟨6, _⟩ => ⟨S64x2048x1, .f32⟩
  | .hbm, ⟨7, _⟩ => ⟨S512x1024, .f32⟩
  | .hbm, ⟨8, _⟩ => ⟨S_, .f32⟩
  | .hbm, ⟨9, _⟩ => ⟨S1024, .f32⟩
  | .hbm, ⟨10, _⟩ => ⟨S64x2048x1024, .f32⟩
  | .hbm, ⟨11, _⟩ => ⟨S_, .f32⟩
  | .hbm, ⟨12, _⟩ => ⟨S64x2048x1024, .f32⟩
  | .hbm, ⟨13, _⟩ => ⟨S64x2048x1024, .f32⟩
  | .hbm, ⟨14, _⟩ => ⟨S64x2048x1024, .f32⟩
  | .hbm, ⟨15, _⟩ => ⟨S64x2048x1024, .f32⟩
  | .hbm, ⟨16, _⟩ => ⟨S1x1x1024, .f32⟩
  | .hbm, ⟨17, _⟩ => ⟨S64x2048x1024, .f32⟩
  | .hbm, ⟨18, _⟩ => ⟨S64x2048x1024, .f32⟩
  | .hbm, ⟨19, _⟩ => ⟨S64x2048x1024, .f32⟩
  | .hbm, ⟨20, _⟩ => ⟨S_, .f32⟩
  | .hbm, ⟨21, _⟩ => ⟨S64x2048, .f32⟩
  | .hbm, ⟨22, _⟩ => ⟨S_, .f32⟩
  | .hbm, ⟨23, _⟩ => ⟨S64x2048, .f32⟩
  | .hbm, ⟨24, _⟩ => ⟨S64x2048, .f32⟩
  | .hbm, ⟨25, _⟩ => ⟨S64x2048x1, .f32⟩
  | .hbm, ⟨26, _⟩ => ⟨S64x2048x1024, .f32⟩
  | .hbm, ⟨27, _⟩ => ⟨S64x2048x1024, .f32⟩
  | .hbm, ⟨28, _⟩ => ⟨S64x2048x1024, .f32⟩
  | .hbm, ⟨29, _⟩ => ⟨S_, .f32⟩
  | .hbm, ⟨30, _⟩ => ⟨S64x2048, .f32⟩
  | .hbm, ⟨31, _⟩ => ⟨S64x2048x1, .f32⟩
  | .hbm, ⟨32, _⟩ => ⟨S64x2048x1024, .f32⟩
  | .hbm, ⟨33, _⟩ => ⟨S64x2048x1024, .f32⟩
  | .hbm, ⟨34, _⟩ => ⟨S64x1024x2048, .f32⟩
  | _, _ => ⟨S64x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  transposes_S64x512x2048_S64x2048x512_0_2_1 : S64x512x2048.Transposes [0, 2, 1] S64x2048x512
  reducesTo_S64x2048x512_S64x2048_d2 : S64x2048x512.ReducesTo [2] S64x2048
  h_S_ : 0 < S_.numel
  bcast_S64x2048_S64x2048x1_0_1 : S64x2048.BroadcastsInDim S64x2048x1 (![0, 1] : Fin 2 → Fin S64x2048x1.rank)
  reducesTo_S512x1024_S1024_d0 : S512x1024.ReducesTo [0] S1024
  bcast_S_S64x2048x1024 : S_.BroadcastsInDim S64x2048x1024 (![] : Fin 0 → Fin S64x2048x1024.rank)
  bcast_S64x2048x1_S64x2048x1024_0_1_2 : S64x2048x1.BroadcastsInDim S64x2048x1024 (![0, 1, 2] : Fin 3 → Fin S64x2048x1024.rank)
  bcast_S1024_S1x1x1024_2 : S1024.BroadcastsInDim S1x1x1024 (![2] : Fin 1 → Fin S1x1x1024.rank)
  bcast_S1x1x1024_S64x2048x1024_0_1_2 : S1x1x1024.BroadcastsInDim S64x2048x1024 (![0, 1, 2] : Fin 3 → Fin S64x2048x1024.rank)
  reducesTo_S64x2048x1024_S64x2048_d2 : S64x2048x1024.ReducesTo [2] S64x2048
  bcast_S_S64x2048 : S_.BroadcastsInDim S64x2048 (![] : Fin 0 → Fin S64x2048.rank)
  transposes_S64x2048x1024_S64x1024x2048_0_2_1 : S64x2048x1024.Transposes [0, 2, 1] S64x1024x2048
  dot_S64x2048x512_S512x1024_S64x2048x1024_2_0_01_1_n_n_wf : DotDims.WF S64x2048x512 S512x1024 S64x2048x1024 [2] [0] [0, 1] [1] [] []

variable [Facts₀]

def dot_S64x2048x512_S512x1024_S64x2048x1024_2_0_01_1_n_n : DotDims S64x2048x512 S512x1024 S64x2048x1024 where
  lhsContracting := [2]
  rhsContracting := [0]
  lhsNonContracting := [0, 1]
  rhsNonContracting := [1]
  lhsBatch := []
  rhsBatch := []
  wf := dot_S64x2048x512_S512x1024_S64x2048x1024_2_0_01_1_n_n_wf

class Facts : Prop extends Facts₀ where

variable [Facts]
-- ==== Proof.Softmax.lean ====
/-
  The column softmax, in the two spellings the programs use, over the extended reals.

  Fix one output column: a vector `Hc : ι → EReal` (the column of the first argument the contraction runs over) and a
  matrix `Uc : ι → σ → EReal` (the second argument). Both programs compute, for each `s : σ`, the softmax over `σ` of the
  scores `2·⟨Uc · s, Hc⟩ − ‖Uc · s‖²`:

    * `kform` scales the matrix first, subtracts the squared norm, takes the maximum over `σ` from `−∞`, exponentiates the
      differences and multiplies by the reciprocal of their sum;
    * `rform` spells the negated squared distance `−(‖Hc‖² − 2·⟨Hc, Uc · s⟩ + ‖Uc · s‖²)`, takes the maximum (once more
      against `−∞`), exponentiates the differences and divides by their sum (added to a zero).

  The two scores differ by `‖Hc‖²`, which does not depend on `s`: on REAL inputs the shift leaves every difference to the
  maximum unchanged, so the exponentials agree term by term, their sum is a positive real, and dividing by it is
  multiplying by its reciprocal (`rform_eq_kform`). The constants are parameters; the law takes what they denote.
-/
import Idealize.ShloMosaic.PureOps.Ideal

noncomputable section

open scoped BigOperators
open Idealize.ShloMosaic

namespace Cert.Softmax

variable {ι σ : Type} [Fintype ι] [Fintype σ]

/-- The score as the first program spells it: the matrix scaled, contracted with the column, less the squared norm. -/
def kscore (two zero : EReal) (Hc : ι → EReal) (Uc : ι → σ → EReal) (s : σ) : EReal :=
  (∑ d, (two * Uc d s) * Hc d) - (zero + ∑ d, Uc d s * Uc d s)

/-- A softmax entry over any scores, as the first program spells it: the exponential of the score less the maximum, times
    the reciprocal of the sum of those exponentials. -/
def sform (ninf one : EReal) (X : σ → EReal) (s : σ) : EReal :=
  Ideal.exp (X s - Finset.univ.fold max ninf X) * Ideal.div one (∑ s', Ideal.exp (X s' - Finset.univ.fold max ninf X))

/-- The softmax entry as the first program spells it. -/
def kform (two zero ninf one : EReal) (Hc : ι → EReal) (Uc : ι → σ → EReal) (s : σ) : EReal :=
  sform ninf one (kscore two zero Hc Uc) s

/-- The score as the second program spells it: the negated squared distance, expanded. -/
def rscore (two zero : EReal) (Hc : ι → EReal) (Uc : ι → σ → EReal) (s : σ) : EReal :=
  -(((zero + ∑ d, Hc d * Hc d) - two * ∑ d, Hc d * Uc d s) + (zero + ∑ d, Uc d s * Uc d s))

/-- The softmax entry as the second program spells it. -/
def rform (two zero ninf : EReal) (Hc : ι → EReal) (Uc : ι → σ → EReal) (s : σ) : EReal :=
  Ideal.div (Ideal.exp (rscore two zero Hc Uc s - max ninf (Finset.univ.fold max ninf (rscore two zero Hc Uc))))
    (zero + ∑ s', Ideal.exp (rscore two zero Hc Uc s' - max ninf (Finset.univ.fold max ninf (rscore two zero Hc Uc))))

/-- A finite sum of reals, each read as an extended real, is the real sum read as one. -/
theorem coe_sum {κ : Type} (t : Finset κ) (f : κ → ℝ) : (∑ a ∈ t, ((f a : ℝ) : EReal)) = ((∑ a ∈ t, f a : ℝ) : EReal) := by
  classical
  induction t using Finset.induction_on with
  | empty => simp
  | insert a t ha ih => rw [Finset.sum_insert ha, Finset.sum_insert ha, ih, EReal.coe_add]

/-- Reading reals as extended reals keeps the order, hence maxima. -/
theorem coe_max (a b : ℝ) : ((max a b : ℝ) : EReal) = max ((a : ℝ) : EReal) ((b : ℝ) : EReal) :=
  EReal.coe_strictMono.monotone.map_max

/-- The maximum from `−∞` over a nonempty set of reals is a real, and shifting every entry by `c` shifts it by `c`. -/
theorem fold_max_shift (t : Finset σ) (ht : t.Nonempty) (x : σ → ℝ) (c : ℝ) :
    ∃ mr : ℝ, t.fold max (⊥ : EReal) (fun a => ((x a : ℝ) : EReal)) = ((mr : ℝ) : EReal)
      ∧ t.fold max (⊥ : EReal) (fun a => ((x a - c : ℝ) : EReal)) = ((mr - c : ℝ) : EReal) := by
  classical
  induction ht using Finset.Nonempty.cons_induction with
  | singleton a =>
    refine ⟨x a, ?_, ?_⟩
    · rw [Finset.fold_singleton]; exact max_eq_left bot_le
    · rw [Finset.fold_singleton]; exact max_eq_left bot_le
  | cons a t ha _ ih =>
    obtain ⟨mr, h1, h2⟩ := ih
    refine ⟨max (x a) mr, ?_, ?_⟩
    · rw [Finset.fold_cons, h1]; exact (coe_max _ _).symm
    · rw [Finset.fold_cons, h2, ← coe_max, max_sub_sub_right]

variable [Nonempty σ]

/-- ON REAL INPUTS THE TWO SPELLINGS AGREE, for constants that denote 2, 0, −∞ and 1. -/
theorem rform_eq_kform {two zero ninf one : EReal} (htwo : two = ((2 : ℝ) : EReal)) (hzero : zero = 0) (hninf : ninf = ⊥)
    (hone : one = 1) (h : ι → ℝ) (u : ι → σ → ℝ) (s : σ) :
    rform two zero ninf (fun d => ((h d : ℝ) : EReal)) (fun d s' => ((u d s' : ℝ) : EReal)) s
      = kform two zero ninf one (fun d => ((h d : ℝ) : EReal)) (fun d s' => ((u d s' : ℝ) : EReal)) s := by
  subst htwo hzero hninf hone
  -- the real scores, and the shift between them
  set x : σ → ℝ := fun s' => (∑ d, (2 * u d s') * h d) - (0 + ∑ d, u d s' * u d s') with hx
  set c : ℝ := 0 + ∑ d, h d * h d with hc
  have hk : kscore ((2 : ℝ) : EReal) 0 (fun d => ((h d : ℝ) : EReal)) (fun d s' => ((u d s' : ℝ) : EReal))
      = fun s' => ((x s' : ℝ) : EReal) := by
    funext s'
    unfold kscore
    simp only [← EReal.coe_mul, coe_sum, ← EReal.coe_zero, ← EReal.coe_add, ← EReal.coe_sub, hx]
  have hr : rscore ((2 : ℝ) : EReal) 0 (fun d => ((h d : ℝ) : EReal)) (fun d s' => ((u d s' : ℝ) : EReal))
      = fun s' => ((x s' - c : ℝ) : EReal) := by
    funext s'
    unfold rscore
    simp only [← EReal.coe_mul, coe_sum, ← EReal.coe_zero, ← EReal.coe_add, ← EReal.coe_sub, ← EReal.coe_neg]
    refine congrArg _ ?_
    have e : (∑ d, (2 * u d s') * h d) = 2 * ∑ d, h d * u d s' := by
      rw [Finset.mul_sum]; exact Finset.sum_congr rfl fun d _ => by ring
    simp only [hx, hc, e]; ring
  obtain ⟨mr, hm1, hm2⟩ := fold_max_shift (Finset.univ : Finset σ) Finset.univ_nonempty x c
  -- the common exponentials and their positive sum
  set e : σ → ℝ := fun s' => Real.exp (x s' - mr) with he
  have hS : (0 : ℝ) < ∑ s', e s' := Finset.sum_pos (fun s' _ => Real.exp_pos _) Finset.univ_nonempty
  have hP : ∀ s', Ideal.exp (((x s' : ℝ) : EReal) - ((mr : ℝ) : EReal)) = ((e s' : ℝ) : EReal) := fun s' => by
    rw [← EReal.coe_sub]; rfl
  have hQ : ∀ s', Ideal.exp (((x s' - c : ℝ) : EReal) - max ⊥ ((mr - c : ℝ) : EReal)) = ((e s' : ℝ) : EReal) := fun s' => by
    rw [max_eq_right bot_le, ← EReal.coe_sub, sub_sub_sub_cancel_right]; rfl
  unfold rform kform sform
  rw [hk, hr, hm1, hm2]
  simp only [hP, hQ, coe_sum, zero_add]
  rw [Ideal.div_coe hS.ne', Ideal.div_coe hS.ne', one_mul]

end Cert.Softmax

end
-- ==== Proof.Lits.lean ====
/-
  The float constants the two programs spell, as the extended reals their patterns denote: the scale `2`, the zeros the
  sums start from, the `−∞` the maxima start from, the `1` of the reciprocal, and the `+∞` the precondition compares
  against. Stated once, here, so that no other module opens a bit pattern.
-/
import Idealize.ShloMosaic.PureOps.Ideal

noncomputable section

open Idealize.ShloMosaic

namespace Cert.Lits

/-- `2.0`. -/
abbrev two : EReal := Ideal.ofBits .f32 0x40000000#32
/-- `0.0`. -/
abbrev zero : EReal := Ideal.ofBits .f32 0x00000000#32
/-- `−∞`. -/
abbrev ninf : EReal := Ideal.ofBits .f32 0xFF800000#32
/-- `1.0`. -/
abbrev one : EReal := Ideal.ofBits .f32 0x3F800000#32

theorem two_eq : two = ((2 : ℝ) : EReal) := by
  simp [Ideal.ofBits, Ideal.ieee, -EReal.coe_mul]; norm_num
theorem zero_eq : zero = 0 := by simp [Ideal.ofBits, Ideal.ieee]
theorem ninf_eq : ninf = ⊥ := by simp [Ideal.ofBits, Ideal.ieee]
theorem one_eq : one = 1 := by
  simp [Ideal.ofBits, Ideal.ieee, -EReal.coe_mul]; norm_num
/-- The pattern the precondition compares against denotes `+∞`. -/
theorem inf_eq : Ideal.ofBits .f32 0x7F800000#32 = ⊤ := by simp [Ideal.ofBits, Ideal.ieee]

end Cert.Lits

end
-- ==== Proof.Finite.lean ====
/-
  Finite inputs are reals.

  The precondition says of each argument array that every entry's absolute value is below `+∞`. On the extended reals
  `|x| = max x (−x)` is `+∞` exactly at the two infinities, so every entry of both arrays is a real number: the form in
  which the softmax law of the two programs is stated.
-/
import proofs.«424699_j7267084665075_3_alg».proof.Pre_finite_inputs
import proofs.«424699_j7267084665075_3_alg».proof.Proof.Lits
import Idealize.ShloMosaic.Lib.ReduceAll
import Idealize.ShloMosaic.Lib.ValueIdx

noncomputable section

open Idealize.ShloMosaic

namespace Cert.Finite

open Cert.Pre_finite_inputs

/-- The rank-0 shape has one index. -/
instance : Subsingleton S_.Idx := ⟨fun _ _ => funext fun d => d.elim0⟩

/-- An extended real whose absolute value is strictly below `+∞` is a real. -/
theorem exists_real_of_abs_lt (x : EReal) (h : Ideal.cmp .olt (max x (-x)) (Ideal.ofBits .f32 0x7F800000#32) = 1#1) :
    ∃ r : ℝ, x = ((r : ℝ) : EReal) := by
  rw [Cert.Lits.inf_eq] at h
  induction x using EReal.rec with
  | bot => simp [Ideal.cmp] at h
  | top => simp [Ideal.cmp] at h
  | coe r => exact ⟨r, rfl⟩

variable [Cert.Pre_finite_inputs.Facts]

/-- Under the precondition every entry of both argument arrays is a real. -/
theorem real_of_pre (a0 : FVec Ideal S64x512x2048 .f32) (a1 : FVec Ideal S512x1024 .f32)
    (h : Cert.Pre_finite_inputs.fn (F := Ideal) a0 a1 = fun _ => 1#1) :
    (∀ i, ∃ r : ℝ, a0 i = ((r : ℝ) : EReal)) ∧ (∀ i, ∃ r : ℝ, a1 i = ((r : ℝ) : EReal)) := by
  have h0 := congrFun h ValueIdx.ix0
  dsimp only [Cert.Pre_finite_inputs.fn] at h0
  obtain ⟨hA, hB⟩ := IntOp.andi_eq_one.1 h0
  exact ⟨fun i => exists_real_of_abs_lt _ (Host.reduce_andi_all _ _ _ _ _ hA i),
    fun i => exists_real_of_abs_lt _ (Host.reduce_andi_all _ _ _ _ _ hB i)⟩

end Cert.Finite

end
-- ==== Proof.RefRead.lean ====
/-
  The reference's result, read at one entry.

  At the entry `(b, s, T)` of its result the reference holds the column softmax in its own spelling (`Softmax.rform`) of
  the column `d ↦ x0 (b, d, T)` of the first argument against the second argument `(d, s') ↦ x1 (d, s')`: the squared
  distances expanded as `‖h‖² − 2⟨h, u⟩ + ‖u‖²` and negated, their maximum over `s'`, the exponentials of the differences,
  divided by their sum. Each stage of the program is read at the coordinates it is used at.
-/
import proofs.«424699_j7267084665075_3_alg».proof.Proof.Gen.ReferenceIdeal.Read
import proofs.«424699_j7267084665075_3_alg».proof.Proof.Softmax
import proofs.«424699_j7267084665075_3_alg».proof.Proof.Lits
import Idealize.ShloMosaic.Lib.ValueIdx
import Idealize.ShloMosaic.PureOps.Ideal.Laws
import Idealize.ShloMosaic.PureOps.Reduce

noncomputable section

open scoped BigOperators
open Idealize.ShloMosaic Idealize.ShloMosaic.ValueIdx

namespace Cert.RefRead

open Cert.ReferenceIdeal Cert.ReferenceIdeal.Gen Cert.ReferenceIdeal.Read Cert.Softmax Cert.Lits

variable (x0 : (⟨S64x512x2048, .f32⟩ : BufTy).Contents (Elt Ideal)) (x1 : (⟨S512x1024, .f32⟩ : BufTy).Contents (Elt Ideal))

/-- The column of the first argument that the entry `(b, ·, T)` contracts over. -/
abbrev col (b : Fin 64) (T : Fin 2048) : Fin 512 → EReal := fun d => x0 (ix3 b d T)
/-- The second argument by its two coordinates. -/
abbrev mat : Fin 512 → Fin 1024 → EReal := fun d s => x1 (ix2 d s)

/-- The negated squared distance at `(b, T, s)` is the reference's score of column `(b, T)` against unit `s`. -/
theorem score_at (b : Fin 64) (T : Fin 2048) (s : Fin 1024) :
    val_main_v14 (F := Ideal) x0 x1 (ix3 b T s) = rscore two zero (col x0 b T) (mat x1) s := by
  have e1 : ∀ k : Fin 512, idx_main_v0 (idx_main_v2 (idx_main_v3 (idx_main_v9 (ix3 b T s))) k) = ix3 b k T := fun k =>
    funext fun a => by match a with | ⟨0, _⟩ => rfl | ⟨1, _⟩ => rfl | ⟨2, _⟩ => rfl
  have e2 : ∀ k : Fin 512, idx_main_v0 (lidx_main_v6 (ix3 b T s) k) = ix3 b k T := fun k =>
    funext fun a => by match a with | ⟨0, _⟩ => rfl | ⟨1, _⟩ => rfl | ⟨2, _⟩ => rfl
  have e3 : ∀ k : Fin 512, ridx_main_v6 (ix3 b T s) k = ix2 k s := fun k =>
    funext fun a => by match a with | ⟨0, _⟩ => rfl | ⟨1, _⟩ => rfl
  have e4 : ∀ k : Fin 512, idx_main_v5 (idx_main_v11 (idx_main_v12 (ix3 b T s))) k = ix2 k s := fun k =>
    funext fun a => by match a with | ⟨0, _⟩ => rfl | ⟨1, _⟩ => rfl
  rw [val_main_v14_apply, val_main_v13_apply, val_main_v10_apply, val_main_v9_apply, val_main_v3_apply, val_main_v2_apply,
    val_main_v8_apply, val_main_v7_apply, val_main_v6_apply, val_main_v12_apply, val_main_v11_apply, val_main_v5_apply]
  simp only [val_main_v1_apply, val_main_v0_apply, val_main_v4_apply, val_main_cst_apply, val_main_cst_0_apply,
    val_main_cst_1_apply, e1, e2, e3, e4, Ideal.mulf_def, Ideal.addf_def, Ideal.subf_def, Ideal.hostNegf_def, Ideal.negf_def,
    Ideal.ofBits_def]
  rfl

/-- The maximum over the units of the negated squared distances of column `(b, T)`, from `−∞`. -/
theorem max_at (b : Fin 64) (T : Fin 2048) :
    val_main_v15 (F := Ideal) x0 x1 (ix2 b T) = Finset.univ.fold max ninf (rscore two zero (col x0 b T) (mat x1)) := by
  have hl : ∀ k : Fin 1024, (by decide : S64x2048x1024.Reduces [2] S64x2048).lift (ix2 b T) k = ix3 b T k := fun k =>
    funext fun a => Fin.ext (by match a with | ⟨0, _⟩ => rfl | ⟨1, _⟩ => rfl | ⟨2, _⟩ => rfl)
  unfold val_main_v15
  rw [Host.reduce_eq_fold_single FloatOps.maximumf _ _ reducesTo_S64x2048x1024_S64x2048_d2 (by decide) h_S_ (ix2 b T)]
  show Finset.univ.fold max ninf (fun k : Fin 1024 => val_main_v14 (F := Ideal) x0 x1
    ((by decide : S64x2048x1024.Reduces [2] S64x2048).lift (ix2 b T) k)) = _
  simp only [hl, score_at]

/-- The exponential at `(b, T, s)`: of the score less the maximum (taken once more against `−∞`). -/
theorem exp_at (b : Fin 64) (T : Fin 2048) (s : Fin 1024) :
    val_main_v21 (F := Ideal) x0 x1 (ix3 b T s)
      = Ideal.exp (rscore two zero (col x0 b T) (mat x1) s
          - max ninf (Finset.univ.fold max ninf (rscore two zero (col x0 b T) (mat x1)))) := by
  have e : idx_main_v18 (idx_main_v19 (ix3 b T s)) = ix2 b T :=
    funext fun a => by match a with | ⟨0, _⟩ => rfl | ⟨1, _⟩ => rfl
  rw [val_main_v21_apply, val_main_v20_apply, val_main_v19_apply, val_main_v18_apply, val_main_v17_apply, val_main_v16_apply,
    val_main_cst_3_apply, e, max_at, score_at]
  rfl

/-- THE REFERENCE'S RESULT at `(b, s, T)` is its spelling of the column softmax. -/
theorem result_at (b : Fin 64) (s : Fin 1024) (T : Fin 2048) :
    val_main_v26 (F := Ideal) x0 x1 (ix3 b s T) = rform two zero ninf (col x0 b T) (mat x1) s := by
  have e0 : idx_main_v26 (ix3 b s T) = ix3 b T s :=
    funext fun a => by match a with | ⟨0, _⟩ => rfl | ⟨1, _⟩ => rfl | ⟨2, _⟩ => rfl
  have e1 : ∀ k : Fin 1024, idx_main_v22 (idx_main_v23 (idx_main_v24 (ix3 b T s))) k = ix3 b T k := fun k =>
    funext fun a => by match a with | ⟨0, _⟩ => rfl | ⟨1, _⟩ => rfl | ⟨2, _⟩ => rfl
  rw [val_main_v26_apply, e0, val_main_v25_apply, val_main_v24_apply, val_main_v23_apply, val_main_v22_apply]
  simp only [e1, exp_at, val_main_cst_4_apply, Ideal.hostDivf_def, Ideal.ofBits_def]
  rfl

end Cert.RefRead

end
-- ==== Proof.KernelPay.lean ====
/-
  The kernel body's stored value, read at one entry.

  At a grid point the body holds a block `x0` of the first argument (one batch entry, all 512 features, 1024 positions),
  the scaled second argument `x1` (512 features by 1024 units) and the column `x2` of the units' squared norms. It
  contracts the features (`cross s t = ∑ d, x1 (d, s) · x0 (0, d, t)`), subtracts the squared norm of unit `s`, and for each
  position `t` takes the softmax over the units: the maximum from `−∞`, the exponentials of the differences, and their
  product with the reciprocal of their sum. So the entry `(0, s, t)` of the stored block is `Softmax.sform` of the scores
  of position `t` (`stored_at`). The payload is restated through named stages (`stored_eq`, by unfolding), and each
  stage is read at its coordinates.
-/
import proofs.«424699_j7267084665075_3_alg».proof.Proof.Gen.KernelIdeal.Skeleton
import proofs.«424699_j7267084665075_3_alg».proof.Proof.Softmax
import proofs.«424699_j7267084665075_3_alg».proof.Proof.Lits
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelPay

open Cert.KernelIdeal Cert.KernelIdeal.Gen Cert.Softmax Cert.Lits

/-! ## Two layout operations the body uses, at an index -/

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An exponential at an index is the exponential of the element. -/
theorem exp_apply {s : Shape} {φ : FTy} (a : FVec Ideal s φ) (i : s.Idx) : exp a i = Ideal.exp (a i) := rfl

/-! ## The contraction at an index -/

theorem lhs_ax0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
theorem lhs_ax1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
theorem rhs_ax0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
theorem rhs_ax1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- The body's matrix product into a zero accumulator, at `(s, t)`: both operands contracted over their first axis. -/
theorem cross_at (l r : FVec Ideal S512x1024 .bf16) (s t : Fin 1024) :
    matmul dot_S512x1024_S512x1024_S1024x1024_0_0_1_1_n_n none l r (constant (F := Ideal) S1024x1024 .f32 0x00000000#32) (ix2 s t)
      = ∑ d : Fin 512, l (ix2 d s) * r (ix2 d t) := by
  refine (Ideal.matmul_constant_zero_apply dot_S512x1024_S512x1024_S1024x1024_0_0_1_1_n_n none l r (ix2 s t)).trans ?_
  rw [← Equiv.sum_comp (ValueIdx.contrEquiv1 dot_S512x1024_S512x1024_S1024x1024_0_0_1_1_n_n 512 rfl rfl).symm]
  refine Finset.sum_congr rfl fun k _ => ?_
  have hk := ValueIdx.contrEquiv1_symm_val dot_S512x1024_S512x1024_S1024x1024_0_0_1_1_n_n 512 rfl rfl k
  have el : dot_S512x1024_S512x1024_S1024x1024_0_0_1_1_n_n.lhsIdx (ix2 s t) ((ValueIdx.contrEquiv1 dot_S512x1024_S512x1024_S1024x1024_0_0_1_1_n_n 512 rfl rfl).symm k) = ix2 k s := funext fun a => Fin.ext (by
    match a with
    | ⟨0, _⟩ => exact (lhs_ax0 _ _).trans hk
    | ⟨1, _⟩ => exact lhs_ax1 _ _)
  have er : dot_S512x1024_S512x1024_S1024x1024_0_0_1_1_n_n.rhsIdx (ix2 s t) ((ValueIdx.contrEquiv1 dot_S512x1024_S512x1024_S1024x1024_0_0_1_1_n_n 512 rfl rfl).symm k) = ix2 k t := funext fun a => Fin.ext (by
    match a with
    | ⟨0, _⟩ => exact (rhs_ax0 _ _).trans hk
    | ⟨1, _⟩ => exact rhs_ax1 _ _)
  rw [el, er]

/-! ## The two reductions over the units, at a position -/

/-- The maximum over the first axis, from `−∞`, at position `t`. -/
theorem colmax_at (v : FVec Ideal S1024x1024 .f32) (h : S1024x1024.Reduces [0] S1024) (hφ : FKind.Formats .f32)
    (hacc : (0xFF800000#32 : BitVec 32) = FKind.maximumf.neutral .f32 hφ) (t : Fin 1024) :
    multiReduction .maximumf [0] S1024 v 0xFF800000#32 h hφ hacc (ix1 t)
      = Finset.univ.fold max ninf (fun s : Fin 1024 => v (ix2 s t)) := by
  have hl : ∀ k : Fin 1024, h.lift (ix1 t) k = ix2 k t := fun k =>
    funext fun a => Fin.ext (by match a with | ⟨0, _⟩ => rfl | ⟨1, _⟩ => rfl)
  refine (Ideal.multiReduction_maximumf_single v _ h hφ hacc (ix1 t)).trans ?_
  show Finset.univ.fold max ninf (fun k : Fin 1024 => v (h.lift (ix1 t) k)) = _
  simp only [hl]

/-- The sum over the first axis at position `t`. -/
theorem colsum_at (v : FVec Ideal S1024x1024 .f32) (h : S1024x1024.Reduces [0] S1024) (hφ : FKind.Formats .f32)
    (hacc : (0x00000000#32 : BitVec 32) = FKind.add.neutral .f32 hφ) (t : Fin 1024) :
    multiReduction .add [0] S1024 v 0x00000000#32 h hφ hacc (ix1 t) = ∑ s : Fin 1024, v (ix2 s t) := by
  have hl : ∀ k : Fin 1024, h.lift (ix1 t) k = ix2 k t := fun k =>
    funext fun a => Fin.ext (by match a with | ⟨0, _⟩ => rfl | ⟨1, _⟩ => rfl)
  refine (Ideal.multiReduction_add_single v _ h hφ hacc (ix1 t)).trans ?_
  show (∑ k : Fin 1024, v (h.lift (ix1 t) k)) = _
  simp only [hl]

/-! ## The stages of the body's value -/

section Stages
variable (x0 : FVec Ideal S1x512x1024 .f32) (x1 : FVec Ideal S512x1024 .bf16) (x2 : FVec Ideal S1024x1 .f32)

/-- The scores: the contraction less the units' squared norms laid along the rows. -/
def scoreV : FVec Ideal S1024x1024 .f32 :=
  subf (matmul dot_S512x1024_S512x1024_S1024x1024_0_0_1_1_n_n none (shapeCast S512x1024 x1 shapeCasts_S512x1024_S512x1024)
      (truncf .bf16 (shapeCast S512x1024 x0 shapeCasts_S1x512x1024_S512x1024) bitsLt_bf16_f32)
      (constant S1024x1024 .f32 0x00000000#32))
    (broadcastTo S1024x1024 (shapeCast S1024x1 x2 shapeCasts_S1024x1_S1024x1) broadcasts_S1024x1_S1024x1024)

/-- The row of maxima over the units. -/
def maxV : FVec Ideal S1x1024 .f32 :=
  shapeCast S1x1024 (multiReduction .maximumf [0] S1024 (scoreV x0 x1 x2) 0xFF800000#32 reduces_S1024x1024_S1024 (.inl rfl) rfl)
    shapeCasts_S1024_S1x1024

/-- The exponentials of the scores less their position's maximum. -/
def expV : FVec Ideal S1024x1024 .f32 :=
  exp (subf (scoreV x0 x1 x2) (broadcastTo S1024x1024 (maxV x0 x1 x2) broadcasts_S1x1024_S1024x1024))

/-- The row of their sums over the units. -/
def sumV : FVec Ideal S1x1024 .f32 :=
  shapeCast S1x1024 (multiReduction .add [0] S1024 (expV x0 x1 x2) 0x00000000#32 reduces_S1024x1024_S1024 (.inl rfl) rfl)
    shapeCasts_S1024_S1x1024

/-- The stored block: the exponentials times the reciprocal of their position's sum. -/
def outV : FVec Ideal S1x1024x1024 .f32 :=
  shapeCast S1x1024x1024
    (mulf (expV x0 x1 x2)
      (broadcastTo S1024x1024 (divf (broadcast S1x1024 (Scalar.ofBits .f32 0x3F800000#32)) (sumV x0 x1 x2))
        broadcasts_S1x1024_S1024x1024))
    shapeCasts_S1024x1024_S1x1024x1024

/-- The body's payload is the last stage. -/
theorem stored_eq : k0_pay1 (F := Ideal) x0 x1 x2 = outV x0 x1 x2 := rfl

/-- The score of unit `s` at position `t`, from the blocks' entries. -/
def bscore (t s : Fin 1024) : EReal := (∑ d : Fin 512, x1 (ix2 d s) * x0 (ix3 (0 : Fin 1) d t)) - x2 (ix2 s (0 : Fin 1))

theorem scoreV_at (s t : Fin 1024) : scoreV x0 x1 x2 (ix2 s t) = bscore x0 x1 x2 t s := by
  unfold scoreV bscore
  rw [subf_apply, cross_at, broadcastTo_a1_ab_apply, shapeCast_self, shapeCast_self]
  refine congrArg (· - x2 (ix2 s (0 : Fin 1))) (Finset.sum_congr rfl fun d _ => ?_)
  rw [truncf_apply, shapeCast_1ab_ab_apply]

theorem maxV_at (u : Fin 1) (t : Fin 1024) :
    maxV x0 x1 x2 (ix2 u t) = Finset.univ.fold max ninf (bscore x0 x1 x2 t) := by
  unfold maxV
  rw [shapeCast_a_1a_apply]
  refine (colmax_at _ _ _ _ t).trans ?_
  simp only [scoreV_at]

theorem expV_at (s t : Fin 1024) :
    expV x0 x1 x2 (ix2 s t) = Ideal.exp (bscore x0 x1 x2 t s - Finset.univ.fold max ninf (bscore x0 x1 x2 t)) := by
  unfold expV
  rw [exp_apply, subf_apply, scoreV_at, broadcastTo_1b_ab_apply, maxV_at]

theorem sumV_at (u : Fin 1) (t : Fin 1024) :
    sumV x0 x1 x2 (ix2 u t)
      = ∑ s : Fin 1024, Ideal.exp (bscore x0 x1 x2 t s - Finset.univ.fold max ninf (bscore x0 x1 x2 t)) := by
  unfold sumV
  rw [shapeCast_a_1a_apply]
  refine (colsum_at _ _ _ _ t).trans ?_
  simp only [expV_at]

/-- THE STORED BLOCK at `(u, s, t)`: the softmax entry of unit `s` over the scores of position `t`. -/
theorem stored_at (u : Fin 1) (s t : Fin 1024) :
    k0_pay1 (F := Ideal) x0 x1 x2 (ix3 u s t) = sform ninf one (bscore x0 x1 x2 t) s := by
  rw [stored_eq]
  unfold outV sform
  rw [shapeCast_ab_1ab_apply, mulf_apply, expV_at, broadcastTo_1b_ab_apply, divf_apply, sumV_at]
  rfl

end Stages

end Cert.KernelPay

end
-- ==== Proof.KernelArr.lean ====
/-
  The kernel's result array as one function of the argument arrays.

  `G H U` at the entry `(b, s, T)` is the column softmax, in the kernel's spelling (`Softmax.kform`), of the column
  `d ↦ H (b, d, T)` against `U`. The region finds three arrays: the first argument, the second argument scaled by two,
  and the column of the units' squared norms; the last two are written by the host operations before the region
  (`scaled_at`, `norms_at`). Grid point `t = (b, k)` stages batch entry `b`, positions `1024·k … 1024·k + 1023` of the first
  argument, and the two other arrays whole (`hblk_at`, `ublk_at`, `nblk_at`); what it writes back is block `t` of
  `G` (`flushed_eq`). The blocks cover the result array (`cover`), so after the run the array is `G` of the arguments
  (`final`, `run`).
-/
import proofs.«424699_j7267084665075_3_alg».proof.Proof.Gen.KernelIdeal.Frame
import proofs.«424699_j7267084665075_3_alg».proof.Proof.Gen.KernelIdeal.Value
import proofs.«424699_j7267084665075_3_alg».proof.Proof.KernelPay
import Idealize.ShloMosaic.Lib.Pipeline.Value
import Idealize.ShloMosaic.Lib.StableHlo.Run
import Idealize.ShloMosaic.Lib.IdealHost
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelArr

open Cert.KernelIdeal Cert.KernelIdeal.Gen Cert.KernelIdeal.Value Cert.Softmax Cert.Lits Cert.KernelPay

/-! ## The result as a function of the arguments -/

/-- The column softmax at batch entry `b`, unit `s`, position `T`, in the kernel's spelling. -/
def Gat (H : S64x512x2048.Idx → EReal) (U : S512x1024.Idx → EReal) (b : Fin 64) (s : Fin 1024) (T : Fin 2048) : EReal :=
  kform two zero ninf one (fun d : Fin 512 => H (ix3 b d T)) (fun (d : Fin 512) (s' : Fin 1024) => U (ix2 d s')) s

/-- The result array. -/
def G (H : S64x512x2048.Idx → EReal) (U : S512x1024.Idx → EReal) : S64x1024x2048.Idx → EReal :=
  fun i => Gat H U (i 0) (i 1) (i 2)

theorem G_ix3 (H : S64x512x2048.Idx → EReal) (U : S512x1024.Idx → EReal) (b : Fin 64) (s : Fin 1024) (T : Fin 2048) :
    G H U (ix3 b s T) = Gat H U b s T := rfl

/-- A stored block whose inputs are the column of `H` at `(b, T)`, `U` scaled by two and `U`'s squared column norms
    holds `Gat H U b s T` at `(u, s, tt)`. -/
theorem stored_is_Gat (x0 : FVec Ideal S1x512x1024 .f32) (x1 : FVec Ideal S512x1024 .bf16) (x2 : FVec Ideal S1024x1 .f32)
    (H : S64x512x2048.Idx → EReal) (U : S512x1024.Idx → EReal) (b : Fin 64) (T : Fin 2048) (u : Fin 1) (s tt : Fin 1024)
    (h0 : ∀ d : Fin 512, x0 (ix3 (0 : Fin 1) d tt) = H (ix3 b d T))
    (h1 : ∀ (d : Fin 512) (s' : Fin 1024), x1 (ix2 d s') = two * U (ix2 d s'))
    (h2 : ∀ s' : Fin 1024, x2 (ix2 s' (0 : Fin 1)) = zero + ∑ d : Fin 512, U (ix2 d s') * U (ix2 d s')) :
    k0_pay1 (F := Ideal) x0 x1 x2 (ix3 u s tt) = Gat H U b s T := by
  rw [stored_at]
  unfold Gat kform
  refine congrArg (fun X => sform ninf one X s) (funext fun s' => ?_)
  unfold bscore kscore
  rw [h2]
  refine congrArg (· - _) (Finset.sum_congr rfl fun d _ => ?_)
  rw [h0, h1]

/-- A vector `[n]` laid as the one row of `[1, n]` reads, at `(0, q)`, the vector at `q`. -/
theorem broadcastInDim_a_1a_apply {α : Type} {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) fun a => ?_
  obtain rfl : a = 0 := Subsingleton.elim _ _
  show q.val = if n = 1 then 0 else q.val
  split
  · have := q.isLt; omega
  · rfl

variable (m : (ℓ : Loc nD τ sig) → Buf (Elt Ideal) ℓ) (ρ : Dev nD → PrngReg)

/-- The first argument as launched, over its literal shape. -/
abbrev argH (c : Dev nD) : FVec Ideal S64x512x2048 .f32 := m ((c : Thread nD τ).loc main_arg0)
/-- The second argument as launched, over its literal shape. -/
abbrev argU (c : Dev nD) : FVec Ideal S512x1024 .f32 := m ((c : Thread nD τ).loc main_arg1)

/-! ## The two arrays the host operations write before the region -/

/-- The second window's array: the second argument scaled by two (the change of format is the identity). -/
theorem scaled_eq (c : Dev nD) : (V m c main_v2 : S512x1024.Idx → EReal)
    = truncf .bf16 (mulf (broadcastInDim S512x1024 ![] bcast_S_S512x1024 (constant (F := Ideal) S_ .f32 0x40000000#32))
        (m ((c : Thread nD τ).loc main_arg1))) bitsLt_bf16_f32 := by
  dsimp only [V, hostOps0]; after_results

theorem scaled_at (c : Dev nD) (d : Fin 512) (s : Fin 1024) :
    (V m c main_v2 : S512x1024.Idx → EReal) (ix2 d s) = two * argU m c (ix2 d s) := by
  rw [scaled_eq, truncf_apply, mulf_apply, broadcastInDim_scalar_apply]
  rfl

/-- The third window's array: the column of the second argument's squared column norms. -/
theorem norms_eq (c : Dev nD) : (V m c main_v6 : S1024x1.Idx → EReal)
    = transpose S1024x1 [1, 0] (broadcastInDim S1x1024 ![1] bcast_S1024_S1x1024_1
        (Host.reduceAdd (F := Ideal) (mulf (m ((c : Thread nD τ).loc main_arg1)) (m ((c : Thread nD τ).loc main_arg1)))
          (constant (F := Ideal) S_ .f32 0x00000000#32) reducesTo_S512x1024_S1024_d0 h_S_)) transposes_S1x1024_S1024x1_1_0 := by
  dsimp only [V, hostOps0]; after_results

theorem norms_at (c : Dev nD) (s : Fin 1024) :
    (V m c main_v6 : S1024x1.Idx → EReal) (ix2 s (0 : Fin 1))
      = zero + ∑ d : Fin 512, argU m c (ix2 d s) * argU m c (ix2 d s) := by
  have hl : ∀ k : Fin 512, (by decide : S512x1024.Reduces [0] S1024).lift (ix1 s) k = ix2 k s := fun k =>
    funext fun a => Fin.ext (by match a with | ⟨0, _⟩ => rfl | ⟨1, _⟩ => rfl)
  rw [norms_eq, transpose_ix2_apply, broadcastInDim_a_1a_apply]
  simp only [Host.reduceAdd, Ideal.hostReduceAdd_def]
  rw [Ideal.hostReduceAdd_single reducesTo_S512x1024_S1024_d0 (by decide)]
  refine congrArg₂ (· + ·) rfl (Finset.sum_congr rfl fun k _ => ?_)
  rw [hl k, mulf_apply]

/-! ## The windows' blocks at a grid point, over their literal shapes -/

/-- Which block of which array each window holds at each grid point, decided over the 128 points: the first window
    moves with the result's, the two others stay at block 0, and the result's block indices are a batch entry, 0, and a
    half of the positions. -/
theorem idx_facts : ∀ t : Fin cfg0.N, win0_0.index t (0 : Fin 3) = win0_3.index t (0 : Fin 3)
    ∧ win0_0.index t (1 : Fin 3) = 0
    ∧ win0_0.index t (2 : Fin 3) = win0_3.index t (2 : Fin 3)
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 63 ∧ win0_3.index t (1 : Fin 3) = 0 ∧ win0_3.index t (2 : Fin 3) ≤ 1 :=
  (by decide +kernel : ∀ t : Fin grid0.N, _)

/-- Every (batch entry, half) is some point's block. -/
theorem idx_onto : ∀ (q0 : Fin 64) (q2 : Fin 2), ∃ t : Fin cfg0.N, win0_3.index t = ![q0.val, 0, q2.val] :=
  (by decide +kernel : ∀ (q0 : Fin 64) (q2 : Fin 2), ∃ t : Fin grid0.N, win0_3.index t = ![q0.val, 0, q2.val])

/-- The first window's block at `t`, over its literal shape. -/
abbrev hblk (c : Dev nD) (t : Fin cfg0.N) : FVec Ideal S1x512x1024 .f32 := iblk m c 0 t
/-- The second window's block. -/
abbrev ublk (c : Dev nD) (t : Fin cfg0.N) : FVec Ideal S512x1024 .bf16 := iblk m c 1 t
/-- The third window's block. -/
abbrev nblk (c : Dev nD) (t : Fin cfg0.N) : FVec Ideal S1024x1 .f32 := iblk m c 2 t

theorem hblk_at (c : Dev nD) (t : Fin cfg0.N) (d : Fin 512) (tt : Fin 1024) (b : Fin 64) (T : Fin 2048)
    (hb : b.val = win0_3.index t (0 : Fin 3)) (hT : T.val = win0_3.index t (2 : Fin 3) * 1024 + tt.val) :
    hblk m c t (ix3 (0 : Fin 1) d tt) = argH m c (ix3 b d T) := by
  obtain ⟨e0, e1, e2, -⟩ := idx_facts t
  show V m c main_arg0 (((cfg0.win 0).blk t).view.emb (ix3 (0 : Fin 1) d tt)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * d.val = d.val; omega
  | ⟨2, _⟩ => show win0_0.index t (2 : Fin 3) * 1024 + 1 * tt.val = T.val; omega

theorem ublk_at (c : Dev nD) (t : Fin cfg0.N) (d : Fin 512) (s : Fin 1024) :
    ublk m c t (ix2 d s) = (V m c main_v2 : S512x1024.Idx → EReal) (ix2 d s) := by
  obtain ⟨-, -, -, e3, e4, -⟩ := idx_facts t
  show V m c main_v2 (((cfg0.win 1).blk t).view.emb (ix2 d s)) = _
  refine congrArg _ (funext fun a => Fin.ext ?_)
  match a with
  | ⟨0, _⟩ => show win0_1.index t (0 : Fin 2) * 512 + 1 * d.val = d.val; omega
  | ⟨1, _⟩ => show win0_1.index t (1 : Fin 2) * 1024 + 1 * s.val = s.val; omega

theorem nblk_at (c : Dev nD) (t : Fin cfg0.N) (s : Fin 1024) :
    nblk m c t (ix2 s (0 : Fin 1)) = (V m c main_v6 : S1024x1.Idx → EReal) (ix2 s (0 : Fin 1)) := by
  obtain ⟨-, -, -, -, -, e5, e6, -⟩ := idx_facts t
  show V m c main_v6 (((cfg0.win 2).blk t).view.emb (ix2 s (0 : Fin 1))) = _
  refine congrArg _ (funext fun a => Fin.ext ?_)
  match a with
  | ⟨0, _⟩ => show win0_2.index t (0 : Fin 2) * 1024 + 1 * s.val = s.val; omega
  | ⟨1, _⟩ => show win0_2.index t (1 : Fin 2) * 1 + 1 * 0 = 0; omega

/-! ## What a point writes back, the cover, and the array after the run -/

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT POINT `t` WRITES BACK is block `t` of `G` of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1))) := by
  rw [flushed3]
  unfold out0_3
  rw [View.canon_unit_zero hz3]
  simp only [View.ld_unit_zero (S := S1x512x1024) hz3, View.ld_unit_zero (S := S512x1024) hz2, View.ld_unit_zero (S := S1024x1) hz2]
  funext j
  obtain ⟨u, s, tt, rfl⟩ : ∃ (u : Fin 1) (s tt : Fin 1024), j = ix3 u s tt := ⟨j 0, j 1, j 2, eq_ix3 j⟩
  obtain ⟨e0, e1, e2, e3, e4, e5, e6, b0, b1, b2⟩ := idx_facts t
  have hu : u.val = 0 := by omega
  have hs := s.isLt
  have htt := tt.isLt
  show k0_pay1 (F := Ideal) (hblk m c t) (ublk m c t) (nblk m c t) (ix3 u s tt)
    = G (m ((c : Thread nD τ).loc main_arg0)) (m ((c : Thread nD τ).loc main_arg1)) (((cfg0.win 3).blk t).view.emb (ix3 u s tt))
  have hemb : ((cfg0.win 3).blk t).view.emb (ix3 u s tt)
      = ix3 (⟨win0_3.index t (0 : Fin 3), by omega⟩ : Fin 64) s (⟨win0_3.index t (2 : Fin 3) * 1024 + tt.val, by omega⟩ : Fin 2048) := by
    funext a; apply Fin.ext
    match a with
    | ⟨0, _⟩ => show win0_3.index t (0 : Fin 3) * 1 + 1 * u.val = win0_3.index t (0 : Fin 3); omega
    | ⟨1, _⟩ => show win0_3.index t (1 : Fin 3) * 1024 + 1 * s.val = s.val; omega
    | ⟨2, _⟩ => show win0_3.index t (2 : Fin 3) * 1024 + 1 * tt.val = win0_3.index t (2 : Fin 3) * 1024 + tt.val; omega
  rw [hemb, G_ix3]
  refine stored_is_Gat (hblk m c t) (ublk m c t) (nblk m c t) _ _ _ _ u s tt (fun d => ?_) (fun d s' => ?_) (fun s' => ?_)
  · exact hblk_at m c t d tt _ _ rfl rfl
  · rw [ublk_at, scaled_at]
  · rw [nblk_at, norms_at]

/-- An index of the result array is in point `t`'s block iff each coordinate is in the block's range on its axis. -/
theorem mem_blk (t : Fin cfg0.N) (i : S64x1024x2048.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v7).slice (win0_3.rect t)).set ↔ _
  rw [View.set_slice_whole, Rect.mem_set_unit]
  exact Iff.rfl

/-- The blocks cover the result array: entry `(b, s, T)` lies in the block of the point with batch entry `b` and half
    `T / 1024`. -/
theorem cover (i : S64x1024x2048.Idx) : ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 2048 := (i 2).isLt
  obtain ⟨t, ht⟩ := idx_onto ⟨(i 0).val, hi0⟩ ⟨(i 2).val / 1024, by omega⟩
  have q0 : win0_3.index t (0 : Fin 3) = (i 0).val := congrFun ht 0
  have q1 : win0_3.index t (1 : Fin 3) = 0 := congrFun ht 1
  have q2 : win0_3.index t (2 : Fin 3) = (i 2).val / 1024 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE RESULT ARRAY after the run is `G` of the argument arrays. -/
theorem final (c : Dev nD) : (dats m 0 c).arrAt 3 cfg0.N
    = G (m ((c : Thread nD τ).loc main_arg0)) (m ((c : Thread nD τ).loc main_arg1)) :=
  (dats m 0 c).arrAt_eq_of_cover 3 _ (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v7) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelArr

end
-- ==== Proof.lean ====
/-
  The kernel computes, for each batch entry `b` and position `T`, the softmax over the units `s` of
  `−‖H[b, ·, T] − units[·, s]‖²`, laid out as `(b, s, T)`. The reference expands the squared distance as
  `‖h‖² − 2⟨h, u_s⟩ + ‖u_s‖²` and applies the softmax to its negation; the kernel drops `‖h‖²`, which does not depend
  on `s`, scales the units by two before the contraction, and multiplies by the reciprocal of the normalising sum where
  the reference divides by it. Over the extended reals the two agree on FINITE inputs: a shift by a real leaves every
  difference to the maximum unchanged, the exponentials are reals with a positive sum, and division by a nonzero real
  is multiplication by its reciprocal (Proof/Softmax.lean). The precondition makes the inputs reals
  (Proof/Finite.lean). The kernel's result array is read off its generated frame run block by block
  (Proof/KernelPay.lean, Proof/KernelArr.lean), the reference's off its generated run stage by stage
  (Proof/RefRead.lean). The idealization rewrote nothing, so `preserves` is `True`.
-/
import proofs.«424699_j7267084665075_3_alg».proof.Defs
import proofs.«424699_j7267084665075_3_alg».proof.Proof.Gen.Kernel
import proofs.«424699_j7267084665075_3_alg».proof.Proof.Gen.Kernel.Skeleton
import proofs.«424699_j7267084665075_3_alg».proof.Proof.Gen.Kernel.Launch
import proofs.«424699_j7267084665075_3_alg».proof.Proof.Gen.Kernel.Points
import proofs.«424699_j7267084665075_3_alg».proof.Proof.Gen.Kernel.Frame
import proofs.«424699_j7267084665075_3_alg».proof.Proof.Gen.KernelIdeal
import proofs.«424699_j7267084665075_3_alg».proof.Proof.Gen.KernelIdeal.Skeleton
import proofs.«424699_j7267084665075_3_alg».proof.Proof.Gen.KernelIdeal.Launch
import proofs.«424699_j7267084665075_3_alg».proof.Proof.Gen.KernelIdeal.Points
import proofs.«424699_j7267084665075_3_alg».proof.Proof.Gen.KernelIdeal.Frame
import proofs.«424699_j7267084665075_3_alg».proof.Proof.Gen.ReferenceIdeal
import proofs.«424699_j7267084665075_3_alg».proof.Proof.Gen.Pre_finite_inputs
import proofs.«424699_j7267084665075_3_alg».proof.Proof.Gen.KernelIdeal.Value
import proofs.«424699_j7267084665075_3_alg».proof.Proof.Gen.ReferenceIdeal.Run
import proofs.«424699_j7267084665075_3_alg».proof.Proof.Gen.ReferenceIdeal.Read
import proofs.«424699_j7267084665075_3_alg».proof.Proof.Softmax
import proofs.«424699_j7267084665075_3_alg».proof.Proof.Lits
import proofs.«424699_j7267084665075_3_alg».proof.Proof.Finite
import proofs.«424699_j7267084665075_3_alg».proof.Proof.RefRead
import proofs.«424699_j7267084665075_3_alg».proof.Proof.KernelArr
import Idealize.ShloMosaic.Adequacy
import Idealize.ShloMosaic.Init

noncomputable section

namespace Cert.Proof

open Idealize.ShloMosaic Idealize.SL.Sem Idealize.ShloMosaic.ValueIdx

/-- ON REAL ARGUMENTS the reference's result array is the kernel's function of the arguments: entry by entry the
    reference's spelling of the column softmax is the kernel's. -/
theorem ref_is_G (x0 : (⟨Cert.ReferenceIdeal.S64x512x2048, .f32⟩ : BufTy).Contents (Elt Ideal))
    (x1 : (⟨Cert.ReferenceIdeal.S512x1024, .f32⟩ : BufTy).Contents (Elt Ideal))
    (h0 : ∀ i, ∃ r : ℝ, x0 i = ((r : ℝ) : EReal)) (h1 : ∀ i, ∃ r : ℝ, x1 i = ((r : ℝ) : EReal)) :
    Cert.ReferenceIdeal.Read.val_main_v26 (F := Ideal) x0 x1 = Cert.KernelArr.G x0 x1 := by
  funext i
  obtain ⟨b, s, T, rfl⟩ : ∃ (b : Fin 64) (s : Fin 1024) (T : Fin 2048), i = ix3 b s T := ⟨i 0, i 1, i 2, eq_ix3 i⟩
  rw [Cert.RefRead.result_at, Cert.KernelArr.G_ix3]
  choose h hh using h0
  choose u hu using h1
  have e0 : Cert.RefRead.col x0 b T = fun d => ((h (ix3 b d T) : ℝ) : EReal) := funext fun d => hh _
  have e1 : Cert.RefRead.mat x1 = fun d s' => ((u (ix2 d s') : ℝ) : EReal) := funext fun d => funext fun s' => hu _
  show Cert.Softmax.rform Cert.Lits.two Cert.Lits.zero Cert.Lits.ninf (Cert.RefRead.col x0 b T) (Cert.RefRead.mat x1) s
    = Cert.Softmax.kform Cert.Lits.two Cert.Lits.zero Cert.Lits.ninf Cert.Lits.one (Cert.RefRead.col x0 b T) (Cert.RefRead.mat x1) s
  rw [e0, e1]
  exact Cert.Softmax.rform_eq_kform Cert.Lits.two_eq Cert.Lits.zero_eq Cert.Lits.ninf_eq Cert.Lits.one_eq _ _ s

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `KernelArr.G` of the arguments: the kernel by its run read block by
    block, the reference by its run read entry by entry, on arguments the precondition makes real. -/
theorem algebraic : Cert.algebraic_KernelIdeal_ReferenceIdeal := by
  intro m ρ m' ρ' hpre hagree
  refine ⟨fun c => Cert.KernelArr.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelArr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  obtain ⟨r0, r1⟩ := Cert.Finite.real_of_pre _ _ (hpre c)
  exact ref_is_G _ _ r0 r1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
